-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part1 {F : FTy → Type} [FloatOps F] (main_arg1 : IVec S2x1600000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_c_8 : IVec S_ 32 := constantI S_ 32 0#32
  let main_v25 : IVec S1x1600000 32 := broadcastInDim S1x1600000 ![] bcast_S_S1x1600000 main_c_8
  let main_v26 : IVec S1x1600000 1 := cmpi .sge main_v24 main_v25
  let main_c_9 : IVec S_ 1 := constantI S_ 1 1#1
  let main_v27 : IVec S_ 1 := (fun x v => Host.reduce IntOp.andi x v reducesTo_S1x1600000_S_d0_1 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩

abbrev nBuf : Space → Nat
  | .hbm => 49
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S1x64, .f32⟩
  | .hbm, ⟨40, _⟩ => ⟨S100000x32, .f32⟩
  | .hbm, ⟨41, _⟩ => ⟨S1600000x1, .i32⟩
  | .hbm, ⟨42, _⟩ => ⟨S1600000x32, .f32⟩
  | .hbm, ⟨43, _⟩ => ⟨S_, .f32⟩
  | .hbm, ⟨44, _⟩ => ⟨S100000x32, .f32⟩
  | .hbm, ⟨45, _⟩ => ⟨S1600000x1, .i32⟩
  | .hbm, ⟨46, _⟩ => ⟨S100000x32, .f32⟩
  | .hbm, ⟨47, _⟩ => ⟨S1x32, .f32⟩
  | .hbm, ⟨48, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x1, .f32⟩
  | .local _ .vmem, ⟨14, _⟩ => ⟨S5000x1, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_v0 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call3_v0 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S100000x32, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x32, .f32⟩
  | .hbm, ⟨78, _⟩ => ⟨S100000x32, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x32, .f32⟩
  | .hbm, ⟨88, _⟩ => ⟨S_, .f32⟩
  | .hbm, ⟨89, _⟩ => ⟨S100000x32, .f32⟩
  | .hbm, ⟨90, _⟩ => ⟨S1600000x1, .i32⟩
  | .hbm, ⟨91, _⟩ => ⟨S100000x32, .f32⟩
  | .hbm, ⟨92, _⟩ => ⟨S100000, .f32⟩
  | .hbm, ⟨93, _⟩ => ⟨S100000x1, .f32⟩
  | .hbm, ⟨94, _⟩ => ⟨S100000x32, .f32⟩
  | .hbm, ⟨95, _⟩ => ⟨S100000x32, .f32⟩
  | .hbm, ⟨96, _⟩ => ⟨S1x32, .f32⟩
  | .hbm, ⟨97, _⟩ => ⟨S100000x32, .f32⟩
  | .hbm, ⟨98, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_cst : Ref sig .tc := ⟨.hbm, 53, rfl⟩
abbrev main_call2_v0 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_call4_v0 : Ref sig .tc := ⟨.hbm, 72, rfl⟩
abbrev main_call4_v1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
import Idealize.ShloMosaic.PureOps.Ideal
import Idealize.ShloMosaic.Lib.ValueIdx

/-!
The three dense stages of a two-layer graph convolution with symmetric degree normalisation, as whole-array
functions over the extended reals, index by index. With `N = 100000` nodes:

* `projScale x w s`: row `r` of the product `x · w`, every entry multiplied by the per-node factor `s r`
  (the inverse square root of the node's clipped out-degree);
* `finishProject a si b w so`: the first layer's finish `max (a r k · si r + b k) 0`, projected by `w` and
  scaled by `so r`;
* `finish a si b`: the last layer's finish `a r q · si r + b q`.

A per-node factor comes as an `N × 1` column and a bias as a `1 × D` row, the layouts the tiled stages read.
-/

noncomputable section

namespace Cert.Gcn

open Idealize.ShloMosaic Idealize.ShloMosaic.ValueIdx

abbrev SNx64 : Shape := ⟨2, ![100000, 64]⟩
abbrev SNx32 : Shape := ⟨2, ![100000, 32]⟩
abbrev SNx1 : Shape := ⟨2, ![100000, 1]⟩
abbrev S64x64 : Shape := ⟨2, ![64, 64]⟩
abbrev S64x32 : Shape := ⟨2, ![64, 32]⟩
abbrev S1x64 : Shape := ⟨2, ![1, 64]⟩
abbrev S1x32 : Shape := ⟨2, ![1, 32]⟩

/-- Entry `(r, q)` of `(x · w)` scaled by node `r`'s factor. -/
def projScaleAt {D : Nat} (x : FVec Ideal SNx64 .f32) (w : FVec Ideal ⟨2, ![64, D]⟩ .f32) (s : FVec Ideal SNx1 .f32)
    (r : Fin 100000) (q : Fin D) : EReal :=
  (∑ k : Fin 64, x (ix2 r k) * w (ix2 k q)) * s (ix2 r 0)

/-- `(x · w) ⊙ s`: the projection, each row scaled by its node's factor. -/
def projScale (x : FVec Ideal SNx64 .f32) (w : FVec Ideal S64x64 .f32) (s : FVec Ideal SNx1 .f32) : FVec Ideal SNx64 .f32 :=
  fun i => projScaleAt x w s (i 0) (i 1)

/-- Entry `(r, k)` of the first layer's output: the aggregate scaled by the in-degree factor, plus the bias, clipped below at zero. -/
def hiddenAt (a : FVec Ideal SNx64 .f32) (si : FVec Ideal SNx1 .f32) (b : FVec Ideal S1x64 .f32) (r : Fin 100000) (k : Fin 64) : EReal :=
  max (a (ix2 r k) * si (ix2 r 0) + b (ix2 0 k)) (Ideal.ofBits .f32 0x00000000#32)

/-- The first layer's output as an array. -/
def hidden (a : FVec Ideal SNx64 .f32) (si : FVec Ideal SNx1 .f32) (b : FVec Ideal S1x64 .f32) : FVec Ideal SNx64 .f32 :=
  fun i => hiddenAt a si b (i 0) (i 1)

/-- The first layer's finish followed by the second layer's scaled projection. -/
def finishProject (a : FVec Ideal SNx64 .f32) (si : FVec Ideal SNx1 .f32) (b : FVec Ideal S1x64 .f32)
    (w : FVec Ideal S64x32 .f32) (so : FVec Ideal SNx1 .f32) : FVec Ideal SNx32 .f32 :=
  fun i => projScaleAt (hidden a si b) w so (i 0) (i 1)

/-- Entry `(r, q)` of the last layer's finish. -/
def finishAt (a : FVec Ideal SNx32 .f32) (si : FVec Ideal SNx1 .f32) (b : FVec Ideal S1x32 .f32) (r : Fin 100000) (q : Fin 32) : EReal :=
  a (ix2 r q) * si (ix2 r 0) + b (ix2 0 q)

/-- The last layer's finish as an array. -/
def finish (a : FVec Ideal SNx32 .f32) (si : FVec Ideal SNx1 .f32) (b : FVec Ideal S1x32 .f32) : FVec Ideal SNx32 .f32 :=
  fun i => finishAt a si b (i 0) (i 1)

theorem projScale_ix2 (x : FVec Ideal SNx64 .f32) (w : FVec Ideal S64x64 .f32) (s : FVec Ideal SNx1 .f32) (r : Fin 100000) (q : Fin 64) :
    projScale x w s (ix2 r q) = projScaleAt x w s r q := rfl

theorem hidden_ix2 (a : FVec Ideal SNx64 .f32) (si : FVec Ideal SNx1 .f32) (b : FVec Ideal S1x64 .f32) (r : Fin 100000) (k : Fin 64) :
    hidden a si b (ix2 r k) = hiddenAt a si b r k := rfl

theorem finishProject_ix2 (a : FVec Ideal SNx64 .f32) (si : FVec Ideal SNx1 .f32) (b : FVec Ideal S1x64 .f32)
    (w : FVec Ideal S64x32 .f32) (so : FVec Ideal SNx1 .f32) (r : Fin 100000) (q : Fin 32) :
    finishProject a si b w so (ix2 r q) = projScaleAt (hidden a si b) w so r q := rfl

theorem finish_ix2 (a : FVec Ideal SNx32 .f32) (si : FVec Ideal SNx1 .f32) (b : FVec Ideal S1x32 .f32) (r : Fin 100000) (q : Fin 32) :
    finish a si b (ix2 r q) = finishAt a si b r q := rfl

end Cert.Gcn

end
-- ==== Proof.Stage0.lean ====
import proofs.«418363_j54090818126571_3_alg».proof.Proof.Gen.KernelIdeal.Frame
import proofs.«418363_j54090818126571_3_alg».proof.Proof.Spec
import Idealize.ShloMosaic.Lib.Pipeline.Value
import Idealize.ShloMosaic.Lib.ValueIdx
import Idealize.ShloMosaic.PureOps.Ideal.Laws

/-!
The first tiled stage: a row tile of 5000 nodes computes `(x_tile · W) ⊙ s_tile`. Tile `t` holds rows
`5000·t … 5000·t + 4999`, the weight is read whole at every tile, and the twenty tiles fill the array; so the array the
stage leaves is `projScale` of the three arrays it reads.
-/

set_option maxRecDepth 16384

noncomputable section

namespace Cert.KernelIdeal.Stage0

open Cert.KernelIdeal Cert.KernelIdeal.Gen Cert.Gcn
open Idealize.ShloMosaic Idealize.ShloMosaic.TcCoe Idealize.ShloMosaic.ValueIdx
open Idealize.ShloMosaic.Pipeline (Dat Cfg Window)

theorem origin2 : (![0, 0] : Fin 2 → Nat) = fun _ => 0 := funext fun a => by fin_cases a <;> rfl

/-! ## The tile's arithmetic at an entry -/

/-! The operand indices of the tile's matrix product at an output entry and a contraction index, axis by axis. -/

theorem tileDot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem tileDot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem tileDot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem tileDot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The tile's matrix product into a zero accumulator, at entry `(p, q)`: the sum over the 64 feature columns. -/
theorem tileDot_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact tileDot_lhs_0 _ _
    | ⟨1, _⟩ => exact (tileDot_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (tileDot_rhs_0 _ _).trans hk
    | ⟨1, _⟩ => exact tileDot_rhs_1 _ _)
  rw [el, er]

/-- Entry `(p, q)` of what a tile stores: the product's entry times the row's factor. -/
theorem tile_apply (x0 : Vec Ideal S5000x64 .f32) (x1 : Vec Ideal S64x64 .f32) (x2 : Vec Ideal S5000x1 .f32) (p : Fin 5000) (q : Fin 64) :
    k0_pay1 x0 x1 x2 (ix2 p q) = (∑ k : Fin 64, x0 (ix2 p k) * x1 (ix2 k q)) * x2 (ix2 p 0) := by
  unfold k0_pay1
  refine congrArg₂ (· * ·) (tileDot_apply _ _ p q) ?_
  rw [shapeCast_self]
  exact broadcastTo_apply x2 broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ## From tiles to the array -/

variable (V : (c : Dev nD) → (b : Ref sig .tc) → Buf (Elt Ideal) ((c : Thread nD τ).loc b))

/-- The printed index maps over the twenty tiles: the row-tiled operands sit at block row `t`, the weight at block `(0, 0)`. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem tile_lt (t : Fin cfg0.N) : t.val < 20 := lt_of_lt_of_eq t.isLt N_0

/-- The node that row `p` of tile `t` holds. -/
abbrev rowOf (t : Fin cfg0.N) (p : Fin 5000) : Fin 100000 :=
  ⟨5000 * t.val + p.val, by have := tile_lt t; have := p.isLt; omega⟩

/-- Row `p` of tile `t` of the features is node `5000·t + p`'s row. -/
theorem read_x (c : Dev nD) (t : Fin cfg0.N) (p : Fin 5000) (k : Fin 64) :
    iblk0 V c 0 t (ix2 p k) = V c main_arg0 (ix2 (rowOf t p) k) := by
  show V c main_arg0 (((cfg0.win 0).blk t).view.emb (ix2 p k)) = _
  refine congrArg (V c main_arg0) (funext fun a => Fin.ext ?_)
  obtain ⟨e0, e1, -⟩ := tile_index t
  match a with
  | ⟨0, _⟩ => show win0_0.index t (0 : Fin 2) * 5000 + 1 * p.val = 5000 * t.val + p.val; omega
  | ⟨1, _⟩ => show win0_0.index t (1 : Fin 2) * 64 + 1 * k.val = k.val; omega

/-- The weight is read whole at every tile. -/
theorem read_w (c : Dev nD) (t : Fin cfg0.N) (k : Fin 64) (q : Fin 64) :
    iblk0 V c 1 t (ix2 k q) = V c main_arg2 (ix2 k q) := by
  show V c main_arg2 (((cfg0.win 1).blk t).view.emb (ix2 k q)) = _
  refine congrArg (V c main_arg2) (funext fun a => Fin.ext ?_)
  obtain ⟨-, -, e2, e3, -⟩ := tile_index t
  match a with
  | ⟨0, _⟩ => show win0_1.index t (0 : Fin 2) * 64 + 1 * k.val = k.val; omega
  | ⟨1, _⟩ => show win0_1.index t (1 : Fin 2) * 64 + 1 * q.val = q.val; omega

/-- Row `p` of tile `t` of the factor column is node `5000·t + p`'s factor. -/
theorem read_s (c : Dev nD) (t : Fin cfg0.N) (p : Fin 5000) :
    iblk0 V c 2 t (ix2 p 0) = V c main_v14 (ix2 (rowOf t p) 0) := by
  show V c main_v14 (((cfg0.win 2).blk t).view.emb (ix2 p 0)) = _
  refine congrArg (V c main_v14) (funext fun a => Fin.ext ?_)
  obtain ⟨-, -, -, -, e4, e5, -⟩ := tile_index t
  match a with
  | ⟨0, _⟩ => show win0_2.index t (0 : Fin 2) * 5000 + 1 * p.val = 5000 * t.val + p.val; omega
  | ⟨1, _⟩ => show win0_2.index t (1 : Fin 2) * 1 + 1 * 0 = 0; omega

/-- Entry `(p, q)` of the output tile `t` sits at `(5000·t + p, q)` of the array. -/
theorem out_at (t : Fin cfg0.N) (p : Fin 5000) (q : Fin 64) :
    ((cfg0.win 3).blk t).view.emb (ix2 p q) = ix2 (rowOf t p) q := by
  refine funext fun a => Fin.ext ?_
  obtain ⟨-, -, -, -, -, -, e6, e7⟩ := tile_index t
  match a with
  | ⟨0, _⟩ => show win0_3.index t (0 : Fin 2) * 5000 + 1 * p.val = 5000 * t.val + p.val; omega
  | ⟨1, _⟩ => show win0_3.index t (1 : Fin 2) * 64 + 1 * q.val = q.val; omega

/-- What tile `t` writes back is tile `t` of `projScale` of the arrays the stage reads. -/
theorem flushed_tile (c : Dev nD) (t : Fin cfg0.N) :
    (dat0 V c).flushed 3 t
      = ((cfg0.win 3).blk t).view.read (Elt Ideal) (projScale (V c main_arg0) (V c main_arg2) (V c main_v14)) := by
  show (cfg0.win 3).cut (grid0.coords t) ((dat0 V c).after 3 t) = _
  rw [after0_3]
  unfold out0_3
  rw [View.canon_unit_zero origin2]
  simp only [View.ld_unit_zero (S := S5000x64) origin2, View.ld_unit_zero (S := S64x64) origin2, View.ld_unit_zero (S := S5000x1) origin2]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = projScale (V c main_arg0) (V c main_arg2) (V c main_v14) (((cfg0.win 3).blk t).view.emb (ix2 p q))
  rw [out_at t p q, projScale_ix2]
  refine (tile_apply _ _ _ p q).trans ?_
  unfold projScaleAt
  rw [read_s V c t p]
  exact congrArg (· * _) (Finset.sum_congr rfl fun k _ => by rw [read_x V c t p k, read_w V c t k q])

/-- An index of the array is in tile `t` iff each coordinate is in the tile's range on its axis. -/
theorem mem_tile (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Node `r`'s row lies in tile `r / 5000`: the tiles fill the array. -/
theorem tiles_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by rw [show cfg0.N = 20 from N_0]; omega
  refine ⟨⟨(i 0).val / 5000, ht⟩, flush0_3 _, ?_⟩
  rw [mem_tile]
  obtain ⟨-, -, -, -, -, -, e6, e7⟩ := tile_index ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- The array the stage leaves: `projScale` of the arrays it reads, whatever they hold when it is entered. -/
theorem final (c : Dev nD) :
    (dat0 V c).arrAt 3 cfg0.N = projScale (V c main_arg0) (V c main_arg2) (V c main_v14) :=
  (dat0 V c).arrAt_eq_of_cover 3 _ (fun t _ => flushed_tile V c t) tiles_cover

end Cert.KernelIdeal.Stage0

end
-- ==== Proof.Stage1.lean ====
import proofs.«418363_j54090818126571_3_alg».proof.Proof.Gen.KernelIdeal.Frame
import proofs.«418363_j54090818126571_3_alg».proof.Proof.Spec
import Idealize.ShloMosaic.Lib.Pipeline.Value
import Idealize.ShloMosaic.Lib.ValueIdx
import Idealize.ShloMosaic.PureOps.Ideal.Laws

/-!
The middle tiled stage: a row tile of 5000 nodes finishes the first layer, `h = max (a_tile ⊙ si_tile + b) 0`, and at once
computes the second layer's scaled projection `(h · W) ⊙ so_tile`. Tile `t` holds rows `5000·t … 5000·t + 4999`, the
bias row and the weight are read whole at every tile, and the twenty tiles fill the array; so the array the stage leaves is
`finishProject` of the five arrays it reads.
-/

set_option maxRecDepth 16384

noncomputable section

namespace Cert.KernelIdeal.Stage1

open Cert.KernelIdeal Cert.KernelIdeal.Gen Cert.Gcn
open Idealize.ShloMosaic Idealize.ShloMosaic.TcCoe Idealize.ShloMosaic.ValueIdx
open Idealize.ShloMosaic.Pipeline (Dat Cfg Window)

theorem origin2 : (![0, 0] : Fin 2 → Nat) = fun _ => 0 := funext fun a => by fin_cases a <;> rfl

/-! ## The tile's arithmetic at an entry -/

/-! The operand indices of the tile's matrix product at an output entry and a contraction index, axis by axis. -/

theorem tileDot_lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem tileDot_lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem tileDot_rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem tileDot_rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The tile's matrix product into a zero accumulator, at entry `(p, q)`: the sum over the 64 hidden columns. -/
theorem tileDot_apply (a : FVec Ideal S5000x64 .bf16) (w : FVec Ideal S64x32 .bf16) (p : Fin 5000) (q : Fin 32) :
    matmul dot_S5000x64_S64x32_S5000x32_1_0_0_1_n_n none a w (constant S5000x32 .f32 0x00000000#32) (ix2 p q)
      = ∑ k : Fin 64, a (ix2 p k) * w (ix2 k q) := by
  refine (Ideal.matmul_constant_zero_apply dot_S5000x64_S64x32_S5000x32_1_0_0_1_n_n none a w (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact tileDot_lhs_0 _ _
    | ⟨1, _⟩ => exact (tileDot_lhs_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (tileDot_rhs_0 _ _).trans hk
    | ⟨1, _⟩ => exact tileDot_rhs_1 _ _)
  rw [el, er]

/-- Entry `(p, k)` of the tile's hidden activations: the aggregate times the row's factor, plus the column's bias, clipped below at zero. -/
theorem tileHidden_apply (x0 : Vec Ideal S5000x64 .f32) (x1 : Vec Ideal S5000x1 .f32) (x2 : Vec Ideal S1x64 .f32) (p : Fin 5000) (k : Fin 64) :
    maximumf (addf (mulf x0 (broadcastTo S5000x64 x1 broadcasts_S5000x1_S5000x64)) (broadcastTo S5000x64 x2 broadcasts_S1x64_S5000x64))
        (broadcast S5000x64 (Scalar.ofBits (F := Ideal) .f32 0x00000000#32)) (ix2 p k)
      = max (x0 (ix2 p k) * x1 (ix2 p 0) + x2 (ix2 0 k)) (Ideal.ofBits .f32 0x00000000#32) := by
  refine congrArg₂ max (congrArg₂ (· + ·) (congrArg (x0 (ix2 p k) * ·) ?_) ?_) rfl
  · exact broadcastTo_apply x1 broadcasts_S5000x1_S5000x64 (ix2 p k) (ix2 p 0) (fun a => match a with
      | ⟨0, _⟩ => by show p.val = if (5000 : Nat) = 1 then 0 else p.val; rw [if_neg (by decide)]
      | ⟨1, _⟩ => by show 0 = if (1 : Nat) = 1 then 0 else k.val; rw [if_pos rfl])
  · exact broadcastTo_apply x2 broadcasts_S1x64_S5000x64 (ix2 p k) (ix2 0 k) (fun a => match a with
      | ⟨0, _⟩ => by show 0 = if (1 : Nat) = 1 then 0 else p.val; rw [if_pos rfl]
      | ⟨1, _⟩ => by show k.val = if (64 : Nat) = 1 then 0 else k.val; rw [if_neg (by decide)])

/-- Entry `(p, q)` of what a tile stores: the hidden row times the weight's column, times the row's factor. -/
theorem tile_apply (x0 : Vec Ideal S5000x64 .f32) (x1 : Vec Ideal S5000x1 .f32) (x2 : Vec Ideal S1x64 .f32)
    (x3 : Vec Ideal S64x32 .f32) (x4 : Vec Ideal S5000x1 .f32) (p : Fin 5000) (q : Fin 32) :
    k1_pay1 x0 x1 x2 x3 x4 (ix2 p q)
      = (∑ k : Fin 64, max (x0 (ix2 p k) * x1 (ix2 p 0) + x2 (ix2 0 k)) (Ideal.ofBits .f32 0x00000000#32) * x3 (ix2 k q)) * x4 (ix2 p 0) := by
  unfold k1_pay1
  simp only [shapeCast_self]
  refine congrArg₂ (· * ·) ((tileDot_apply _ _ p q).trans (Finset.sum_congr rfl fun k _ => ?_)) ?_
  · exact congrArg (· * x3 (ix2 k q)) (tileHidden_apply x0 x1 x2 p k)
  · exact broadcastTo_apply x4 broadcasts_S5000x1_S5000x32 (ix2 p q) (ix2 p 0) (fun a => match a with
      | ⟨0, _⟩ => by show p.val = if (5000 : Nat) = 1 then 0 else p.val; rw [if_neg (by decide)]
      | ⟨1, _⟩ => by show 0 = if (1 : Nat) = 1 then 0 else q.val; rw [if_pos rfl])

/-! ## From tiles to the array -/

variable (V : (c : Dev nD) → (b : Ref sig .tc) → Buf (Elt Ideal) ((c : Thread nD τ).loc b))

/-- The printed index maps over the twenty tiles: the row-tiled operands sit at block row `t`, the bias row and the weight at block `(0, 0)`. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem tile_lt (t : Fin cfg1.N) : t.val < 20 := lt_of_lt_of_eq t.isLt N_1

/-- The node that row `p` of tile `t` holds. -/
abbrev rowOf (t : Fin cfg1.N) (p : Fin 5000) : Fin 100000 :=
  ⟨5000 * t.val + p.val, by have := tile_lt t; have := p.isLt; omega⟩

/-- Row `p` of tile `t` of the aggregate is node `5000·t + p`'s row. -/
theorem read_a (c : Dev nD) (t : Fin cfg1.N) (p : Fin 5000) (k : Fin 64) :
    iblk1 V c 0 t (ix2 p k) = V c main_v21 (ix2 (rowOf t p) k) := by
  show V c main_v21 (((cfg1.win 0).blk t).view.emb (ix2 p k)) = _
  refine congrArg (V c main_v21) (funext fun a => Fin.ext ?_)
  obtain ⟨e0, e1, -⟩ := tile_index t
  match a with
  | ⟨0, _⟩ => show win1_0.index t (0 : Fin 2) * 5000 + 1 * p.val = 5000 * t.val + p.val; omega
  | ⟨1, _⟩ => show win1_0.index t (1 : Fin 2) * 64 + 1 * k.val = k.val; omega

/-- Row `p` of tile `t` of the in-degree factor column is node `5000·t + p`'s factor. -/
theorem read_si (c : Dev nD) (t : Fin cfg1.N) (p : Fin 5000) :
    iblk1 V c 1 t (ix2 p 0) = V c main_v16 (ix2 (rowOf t p) 0) := by
  show V c main_v16 (((cfg1.win 1).blk t).view.emb (ix2 p 0)) = _
  refine congrArg (V c main_v16) (funext fun a => Fin.ext ?_)
  obtain ⟨-, -, e2, e3, -⟩ := tile_index t
  match a with
  | ⟨0, _⟩ => show win1_1.index t (0 : Fin 2) * 5000 + 1 * p.val = 5000 * t.val + p.val; omega
  | ⟨1, _⟩ => show win1_1.index t (1 : Fin 2) * 1 + 1 * 0 = 0; omega

/-- The bias row is read whole at every tile. -/
theorem read_b (c : Dev nD) (t : Fin cfg1.N) (k : Fin 64) :
    iblk1 V c 2 t (ix2 0 k) = V c main_v22 (ix2 0 k) := by
  show V c main_v22 (((cfg1.win 2).blk t).view.emb (ix2 0 k)) = _
  refine congrArg (V c main_v22) (funext fun a => Fin.ext ?_)
  obtain ⟨-, -, -, -, e4, e5, -⟩ := tile_index t
  match a with
  | ⟨0, _⟩ => show win1_2.index t (0 : Fin 2) * 1 + 1 * 0 = 0; omega
  | ⟨1, _⟩ => show win1_2.index t (1 : Fin 2) * 64 + 1 * k.val = k.val; omega

/-- The weight is read whole at every tile. -/
theorem read_w (c : Dev nD) (t : Fin cfg1.N) (k : Fin 64) (q : Fin 32) :
    iblk1 V c 3 t (ix2 k q) = V c main_arg4 (ix2 k q) := by
  show V c main_arg4 (((cfg1.win 3).blk t).view.emb (ix2 k q)) = _
  refine congrArg (V c main_arg4) (funext fun a => Fin.ext ?_)
  obtain ⟨-, -, -, -, -, -, e6, e7, -⟩ := tile_index t
  match a with
  | ⟨0, _⟩ => show win1_3.index t (0 : Fin 2) * 64 + 1 * k.val = k.val; omega
  | ⟨1, _⟩ => show win1_3.index t (1 : Fin 2) * 32 + 1 * q.val = q.val; omega

/-- Row `p` of tile `t` of the out-degree factor column is node `5000·t + p`'s factor. -/
theorem read_so (c : Dev nD) (t : Fin cfg1.N) (p : Fin 5000) :
    iblk1 V c 4 t (ix2 p 0) = V c main_v14 (ix2 (rowOf t p) 0) := by
  show V c main_v14 (((cfg1.win 4).blk t).view.emb (ix2 p 0)) = _
  refine congrArg (V c main_v14) (funext fun a => Fin.ext ?_)
  obtain ⟨-, -, -, -, -, -, -, -, e8, e9, -⟩ := tile_index t
  match a with
  | ⟨0, _⟩ => show win1_4.index t (0 : Fin 2) * 5000 + 1 * p.val = 5000 * t.val + p.val; omega
  | ⟨1, _⟩ => show win1_4.index t (1 : Fin 2) * 1 + 1 * 0 = 0; omega

/-- Entry `(p, q)` of the output tile `t` sits at `(5000·t + p, q)` of the array. -/
theorem out_at (t : Fin cfg1.N) (p : Fin 5000) (q : Fin 32) :
    ((cfg1.win 5).blk t).view.emb (ix2 p q) = ix2 (rowOf t p) q := by
  refine funext fun a => Fin.ext ?_
  obtain ⟨-, -, -, -, -, -, -, -, -, -, e10, e11⟩ := tile_index t
  match a with
  | ⟨0, _⟩ => show win1_5.index t (0 : Fin 2) * 5000 + 1 * p.val = 5000 * t.val + p.val; omega
  | ⟨1, _⟩ => show win1_5.index t (1 : Fin 2) * 32 + 1 * q.val = q.val; omega

/-- What tile `t` writes back is tile `t` of `finishProject` of the arrays the stage reads. -/
theorem flushed_tile (c : Dev nD) (t : Fin cfg1.N) :
    (dat1 V c).flushed 5 t
      = ((cfg1.win 5).blk t).view.read (Elt Ideal)
          (finishProject (V c main_v21) (V c main_v16) (V c main_v22) (V c main_arg4) (V c main_v14)) := by
  show (cfg1.win 5).cut (grid1.coords t) ((dat1 V c).after 5 t) = _
  rw [after1_5]
  unfold out1_5
  rw [View.canon_unit_zero origin2]
  simp only [View.ld_unit_zero (S := S5000x64) origin2, View.ld_unit_zero (S := S5000x1) origin2, View.ld_unit_zero (S := S1x64) origin2,
    View.ld_unit_zero (S := S64x32) origin2]
  funext j
  obtain ⟨p, q, rfl⟩ : ∃ (p : Fin 5000) (q : Fin 32), j = ix2 p q := ⟨j 0, j 1, eq_ix2 j⟩
  show k1_pay1 (iblk1 V c 0 t) (iblk1 V c 1 t) (iblk1 V c 2 t) (iblk1 V c 3 t) (iblk1 V c 4 t) (ix2 p q)
    = finishProject (V c main_v21) (V c main_v16) (V c main_v22) (V c main_arg4) (V c main_v14) (((cfg1.win 5).blk t).view.emb (ix2 p q))
  rw [out_at t p q, finishProject_ix2]
  refine (tile_apply _ _ _ _ _ p q).trans ?_
  unfold projScaleAt
  rw [read_so V c t p]
  refine congrArg (· * _) (Finset.sum_congr rfl fun k _ => ?_)
  rw [hidden_ix2]
  unfold hiddenAt
  rw [read_a V c t p k, read_si V c t p, read_b V c t k, read_w V c t k q]

/-- An index of the array is in tile `t` iff each coordinate is in the tile's range on its axis. -/
theorem mem_tile (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v23).slice (win1_5.rect t)).set ↔ _
  rw [View.set_slice_whole, Rect.mem_set_unit]
  exact Iff.rfl

/-- Node `r`'s row lies in tile `r / 5000`: the tiles fill the array. -/
theorem tiles_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 5000 < cfg1.N := by rw [show cfg1.N = 20 from N_1]; omega
  refine ⟨⟨(i 0).val / 5000, ht⟩, flush1_5 _, ?_⟩
  rw [mem_tile]
  obtain ⟨-, -, -, -, -, -, -, -, -, -, e10, e11⟩ := tile_index ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 32 ≤ (i 1).val ∧ (i 1).val < win1_5.index ⟨(i 0).val / 5000, ht⟩ (1 : Fin 2) * 32 + 32
    rw [e11]; omega

/-- The array the stage leaves: `finishProject` of the arrays it reads, whatever they hold when it is entered. -/
theorem final (c : Dev nD) :
    (dat1 V c).arrAt 5 cfg1.N = finishProject (V c main_v21) (V c main_v16) (V c main_v22) (V c main_arg4) (V c main_v14) :=
  (dat1 V c).arrAt_eq_of_cover 5 _ (fun t _ => flushed_tile V c t) tiles_cover

end Cert.KernelIdeal.Stage1

end
-- ==== Proof.Stage2.lean ====
import proofs.«418363_j54090818126571_3_alg».proof.Proof.Gen.KernelIdeal.Frame
import proofs.«418363_j54090818126571_3_alg».proof.Proof.Spec
import Idealize.ShloMosaic.Lib.Pipeline.Value
import Idealize.ShloMosaic.Lib.ValueIdx

/-!
The last tiled stage: a row tile of 5000 nodes computes `a_tile ⊙ s_tile + b`, the bias row read whole at every tile.
Tile `t` holds rows `5000·t … 5000·t + 4999` and the twenty tiles fill the array, so the array the stage leaves is
`finish` of the three arrays it reads.
-/

set_option maxRecDepth 16384

noncomputable section

namespace Cert.KernelIdeal.Stage2

open Cert.KernelIdeal Cert.KernelIdeal.Gen Cert.Gcn
open Idealize.ShloMosaic Idealize.ShloMosaic.TcCoe Idealize.ShloMosaic.ValueIdx
open Idealize.ShloMosaic.Pipeline (Dat Cfg Window)

theorem origin2 : (![0, 0] : Fin 2 → Nat) = fun _ => 0 := funext fun a => by fin_cases a <;> rfl

/-! ## The tile's arithmetic at an entry -/

/-- Entry `(p, q)` of what a tile stores: the aggregate's entry times the row's factor, plus the column's bias. -/
theorem tile_apply (x0 : Vec Ideal S5000x32 .f32) (x1 : Vec Ideal S5000x1 .f32) (x2 : Vec Ideal S1x32 .f32) (p : Fin 5000) (q : Fin 32) :
    k2_pay1 x0 x1 x2 (ix2 p q) = x0 (ix2 p q) * x1 (ix2 p 0) + x2 (ix2 0 q) := by
  unfold k2_pay1
  simp only [shapeCast_self]
  refine congrArg₂ (· + ·) (congrArg (x0 (ix2 p q) * ·) ?_) ?_
  · exact broadcastTo_apply x1 broadcasts_S5000x1_S5000x32 (ix2 p q) (ix2 p 0) (fun a => match a with
      | ⟨0, _⟩ => by show p.val = if (5000 : Nat) = 1 then 0 else p.val; rw [if_neg (by decide)]
      | ⟨1, _⟩ => by show 0 = if (1 : Nat) = 1 then 0 else q.val; rw [if_pos rfl])
  · exact broadcastTo_apply x2 broadcasts_S1x32_S5000x32 (ix2 p q) (ix2 0 q) (fun a => match a with
      | ⟨0, _⟩ => by show 0 = if (1 : Nat) = 1 then 0 else p.val; rw [if_pos rfl]
      | ⟨1, _⟩ => by show q.val = if (32 : Nat) = 1 then 0 else q.val; rw [if_neg (by decide)])

/-! ## From tiles to the array -/

variable (V : (c : Dev nD) → (b : Ref sig .tc) → Buf (Elt Ideal) ((c : Thread nD τ).loc b))

/-- The printed index maps over the twenty tiles: the row-tiled operands sit at block row `t`, the bias row at block `(0, 0)`. -/
theorem tile_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem tile_lt (t : Fin cfg2.N) : t.val < 20 := lt_of_lt_of_eq t.isLt N_2

/-- The node that row `p` of tile `t` holds. -/
abbrev rowOf (t : Fin cfg2.N) (p : Fin 5000) : Fin 100000 :=
  ⟨5000 * t.val + p.val, by have := tile_lt t; have := p.isLt; omega⟩

/-- Row `p` of tile `t` of the aggregate is node `5000·t + p`'s row. -/
theorem read_a (c : Dev nD) (t : Fin cfg2.N) (p : Fin 5000) (q : Fin 32) :
    iblk2 V c 0 t (ix2 p q) = V c main_v27 (ix2 (rowOf t p) q) := by
  show V c main_v27 (((cfg2.win 0).blk t).view.emb (ix2 p q)) = _
  refine congrArg (V c main_v27) (funext fun a => Fin.ext ?_)
  obtain ⟨e0, e1, -⟩ := tile_index t
  match a with
  | ⟨0, _⟩ => show win2_0.index t (0 : Fin 2) * 5000 + 1 * p.val = 5000 * t.val + p.val; omega
  | ⟨1, _⟩ => show win2_0.index t (1 : Fin 2) * 32 + 1 * q.val = q.val; omega

/-- Row `p` of tile `t` of the factor column is node `5000·t + p`'s factor. -/
theorem read_s (c : Dev nD) (t : Fin cfg2.N) (p : Fin 5000) :
    iblk2 V c 1 t (ix2 p 0) = V c main_v16 (ix2 (rowOf t p) 0) := by
  show V c main_v16 (((cfg2.win 1).blk t).view.emb (ix2 p 0)) = _
  refine congrArg (V c main_v16) (funext fun a => Fin.ext ?_)
  obtain ⟨-, -, e2, e3, -⟩ := tile_index t
  match a with
  | ⟨0, _⟩ => show win2_1.index t (0 : Fin 2) * 5000 + 1 * p.val = 5000 * t.val + p.val; omega
  | ⟨1, _⟩ => show win2_1.index t (1 : Fin 2) * 1 + 1 * 0 = 0; omega

/-- The bias row is read whole at every tile. -/
theorem read_b (c : Dev nD) (t : Fin cfg2.N) (q : Fin 32) :
    iblk2 V c 2 t (ix2 0 q) = V c main_v28 (ix2 0 q) := by
  show V c main_v28 (((cfg2.win 2).blk t).view.emb (ix2 0 q)) = _
  refine congrArg (V c main_v28) (funext fun a => Fin.ext ?_)
  obtain ⟨-, -, -, -, e4, e5, -⟩ := tile_index t
  match a with
  | ⟨0, _⟩ => show win2_2.index t (0 : Fin 2) * 1 + 1 * 0 = 0; omega
  | ⟨1, _⟩ => show win2_2.index t (1 : Fin 2) * 32 + 1 * q.val = q.val; omega

/-- Entry `(p, q)` of the output tile `t` sits at `(5000·t + p, q)` of the array. -/
theorem out_at (t : Fin cfg2.N) (p : Fin 5000) (q : Fin 32) :
    ((cfg2.win 3).blk t).view.emb (ix2 p q) = ix2 (rowOf t p) q := by
  refine funext fun a => Fin.ext ?_
  obtain ⟨-, -, -, -, -, -, e6, e7⟩ := tile_index t
  match a with
  | ⟨0, _⟩ => show win2_3.index t (0 : Fin 2) * 5000 + 1 * p.val = 5000 * t.val + p.val; omega
  | ⟨1, _⟩ => show win2_3.index t (1 : Fin 2) * 32 + 1 * q.val = q.val; omega

/-- What tile `t` writes back is tile `t` of `finish` of the arrays the stage reads. -/
theorem flushed_tile (c : Dev nD) (t : Fin cfg2.N) :
    (dat2 V c).flushed 3 t
      = ((cfg2.win 3).blk t).view.read (Elt Ideal) (finish (V c main_v27) (V c main_v16) (V c main_v28)) := by
  show (cfg2.win 3).cut (grid2.coords t) ((dat2 V c).after 3 t) = _
  rw [after2_3]
  unfold out2_3
  rw [View.canon_unit_zero origin2]
  simp only [View.ld_unit_zero (S := S5000x32) origin2, View.ld_unit_zero (S := S5000x1) origin2, View.ld_unit_zero (S := S1x32) origin2]
  funext j
  obtain ⟨p, q, rfl⟩ : ∃ (p : Fin 5000) (q : Fin 32), j = ix2 p q := ⟨j 0, j 1, eq_ix2 j⟩
  show k2_pay1 (iblk2 V c 0 t) (iblk2 V c 1 t) (iblk2 V c 2 t) (ix2 p q)
    = finish (V c main_v27) (V c main_v16) (V c main_v28) (((cfg2.win 3).blk t).view.emb (ix2 p q))
  rw [out_at t p q, finish_ix2]
  refine (tile_apply _ _ _ p q).trans ?_
  unfold finishAt
  rw [read_a V c t p q, read_s V c t p, read_b V c t q]

/-- An index of the array is in tile `t` iff each coordinate is in the tile's range on its axis. -/
theorem mem_tile (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v29).slice (win2_3.rect t)).set ↔ _
  rw [View.set_slice_whole, Rect.mem_set_unit]
  exact Iff.rfl

/-- Node `r`'s row lies in tile `r / 5000`: the tiles fill the array. -/
theorem tiles_cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have ht : (i 0).val / 5000 < cfg2.N := by rw [show cfg2.N = 20 from N_2]; omega
  refine ⟨⟨(i 0).val / 5000, ht⟩, flush2_3 _, ?_⟩
  rw [mem_tile]
  obtain ⟨-, -, -, -, -, -, e6, e7⟩ := tile_index ⟨(i 0).val / 5000, ht⟩
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 32 ≤ (i 1).val ∧ (i 1).val < win2_3.index ⟨(i 0).val / 5000, ht⟩ (1 : Fin 2) * 32 + 32
    rw [e7]; omega

/-- The array the stage leaves: `finish` of the arrays it reads, whatever they hold when it is entered. -/
theorem final (c : Dev nD) :
    (dat2 V c).arrAt 3 cfg2.N = finish (V c main_v27) (V c main_v16) (V c main_v28) :=
  (dat2 V c).arrAt_eq_of_cover 3 _ (fun t _ => flushed_tile V c t) tiles_cover

end Cert.KernelIdeal.Stage2

end
-- ==== Proof.KernelValue.lean ====
import proofs.«418363_j54090818126571_3_alg».proof.Proof.Gen.KernelIdeal.Frame
import proofs.«418363_j54090818126571_3_alg».proof.Proof.Stage0
import proofs.«418363_j54090818126571_3_alg».proof.Proof.Stage1
import proofs.«418363_j54090818126571_3_alg».proof.Proof.Stage2
import Idealize.ShloMosaic.Lib.StableHlo.Run

/-!
The three-call program's result as one function of its arguments. Between the tiled stages the host gathers each
edge's source row and adds it into the edge's target row; before them it computes the two per-node factors from the
degrees. Walking the buffer contents from the launch through every host stretch and every stage gives

  `finish (agg (finishProject (agg (projScale x W1 so)) si b1 W2 so)) si b2`

with `so`, `si` the factor columns of the source and target ids and `agg` the gather–scatter-add over the edges.
-/

set_option maxRecDepth 16384

noncomputable section

namespace Cert.KernelIdeal.Through

open Cert.KernelIdeal Cert.KernelIdeal.Gen Cert.Gcn
open Idealize.ShloMosaic Idealize.ShloMosaic.TcCoe Idealize.ShloMosaic.StableHlo Idealize.SL.Sem

/-- The edges' source ids: row 0 of the edge list. -/
def srcIds (e : IVec S2x1600000 32) : IVec S1600000 32 :=
  shapeCast _ (extractStridedSlice S1x1600000 ![0, 0] e slices_S2x1600000_S1x1600000_0_0) shapeCasts_S1x1600000_S1600000

/-- The edges' target ids: row 1 of the edge list. -/
def dstIds (e : IVec S2x1600000 32) : IVec S1600000 32 :=
  shapeCast _ (extractStridedSlice S1x1600000 ![1, 0] e slices_S2x1600000_S1x1600000_1_0) shapeCasts_S1x1600000_S1600000

/-- One for every edge. -/
def ones : FVec Ideal S1600000 .f32 :=
  broadcastInDim S1600000 ![] bcast_S_S1600000 (constant (F := Ideal) S_ .f32 0x3F800000#32)

/-- How often each node occurs in a list of ids: one added per edge into the node's slot, from zero. -/
def count (ids : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 ids) ones

/-- The count clipped below at one. -/
def degClip (ids : IVec S1600000 32) : FVec Ideal S100000 .f32 :=
  maximumf (broadcastInDim S100000 ![] bcast_S_S100000 (id (constant (F := Ideal) S_ .f32 0x3F800000#32))) (count ids)

/-- The per-node factor of a list of ids, as a column: the inverse square root of the clipped count. -/
def degFactor (ids : IVec S1600000 32) : FVec Ideal S100000x1 .f32 :=
  shapeCast _ (Host.rsqrt (degClip ids)) shapeCasts_S100000_S100000x1

/-- Gather every edge's source row of `h` and add it into the edge's target row, from zero (64 columns). -/
def agg64 (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (broadcastInDim S1600000x1 ![0] bcast_S1600000_S1600000x1_0 src))

/-- The same over 32 columns. -/
def agg32 (h : FVec Ideal S100000x32 .f32) (src dst : IVec S1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 h (broadcastInDim S1600000x1 ![0] bcast_S1600000_S1600000x1_0 src))

/-- The whole program's result as a function of its six arguments. -/
def through (x : FVec Ideal S100000x64 .f32) (e : IVec S2x1600000 32) (w1 : FVec Ideal S64x64 .f32) (b1 : FVec Ideal S64 .f32)
    (w2 : FVec Ideal S64x32 .f32) (b2 : FVec Ideal S32 .f32) : FVec Ideal S100000x32 .f32 :=
  finish
    (agg32
      (finishProject (agg64 (projScale x w1 (degFactor (srcIds e))) (srcIds e) (dstIds e)) (degFactor (dstIds e))
        (shapeCast _ b1 shapeCasts_S64_S1x64) w2 (degFactor (srcIds e)))
      (srcIds e) (dstIds e))
    (degFactor (dstIds e)) (shapeCast _ b2 shapeCasts_S32_S1x32)

/-! ## One host stretch at a time, from any contents

The outlined helper functions (`clip`, `take`) read and write their buffers through typed references; each such stretch is
read here once, from arbitrary contents `V`, as the plain operation on what `V` holds. -/

section Steps
variable (V : Valuation τ sig (Elt Ideal))

theorem clipSrc_step (V : Valuation τ sig (Elt Ideal)) :
    StableHlo.after hostOps0_1 V (Proc.devRef .tc main_v8) = (maximumf (F := Ideal) (broadcastInDim S100000 ![] bcast_S_S100000 (id (V (Proc.devRef .tc main_cst_1) : FVec Ideal S_ .f32))) (V (Proc.devRef .tc main_v7) : FVec Ideal S100000 .f32) : FVec Ideal S100000 .f32) := by
  dsimp only [hostOps0_1]
  after_results
  rfl

theorem clipSrc_keep (V : Valuation τ sig (Elt Ideal)) :
    StableHlo.after hostOps0_2 V (Proc.devRef .tc main_v8) = (V (Proc.devRef .tc main_v8)) := by
  dsimp only [hostOps0_2]
  after_results

theorem countDst_step (V : Valuation τ sig (Elt Ideal)) :
    StableHlo.after hostOps0_2 V (Proc.devRef .tc main_v11) = Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (V (Proc.devRef .tc main_v3) : IVec S1600000 32)) (V (Proc.devRef .tc main_v4) : FVec Ideal S1600000 .f32) := by
  dsimp only [hostOps0_2]
  after_results

theorem oneDst_step (V : Valuation τ sig (Elt Ideal)) :
    StableHlo.after hostOps0_2 V (Proc.devRef .tc main_cst_3) = constant (F := Ideal) S_ .f32 0x3F800000#32 := by
  dsimp only [hostOps0_2]
  after_results

theorem clipDst_step (V : Valuation τ sig (Elt Ideal)) :
    StableHlo.after hostOps0_3 V (Proc.devRef .tc main_v12) = (maximumf (F := Ideal) (broadcastInDim S100000 ![] bcast_S_S100000 (id (V (Proc.devRef .tc main_cst_3) : FVec Ideal S_ .f32))) (V (Proc.devRef .tc main_v11) : FVec Ideal S100000 .f32) : FVec Ideal S100000 .f32) := by
  dsimp only [hostOps0_3]
  after_results
  rfl

theorem clipSrc_keep' (V : Valuation τ sig (Elt Ideal)) :
    StableHlo.after hostOps0_3 V (Proc.devRef .tc main_v8) = (V (Proc.devRef .tc main_v8)) := by
  dsimp only [hostOps0_3]
  after_results

theorem factorSrc_step (V : Valuation τ sig (Elt Ideal)) :
    StableHlo.after hostOps0_4 V (Proc.devRef .tc main_v14) = (shapeCast S100000x1 (Host.rsqrt (V (Proc.devRef .tc main_v8) : FVec Ideal S100000 .f32)) shapeCasts_S100000_S100000x1 : FVec Ideal S100000x1 .f32) := by
  dsimp only [hostOps0_4]
  after_results
  rfl

theorem factorDst_step (V : Valuation τ sig (Elt Ideal)) :
    StableHlo.after hostOps0_4 V (Proc.devRef .tc main_v16) = (shapeCast S100000x1 (Host.rsqrt (V (Proc.devRef .tc main_v12) : FVec Ideal S100000 .f32)) shapeCasts_S100000_S100000x1 : FVec Ideal S100000x1 .f32) := by
  dsimp only [hostOps0_4]
  after_results
  rfl

theorem take64_step (V : Valuation τ sig (Elt Ideal)) :
    StableHlo.after hostOps1 V (Proc.devRef .tc main_v18) = Host.gather gather_S100000x64_S1600000x1_S1600000x64_1_0_n_n_0_1_164 (V (Proc.devRef .tc main_v17) : FVec Ideal S100000x64 .f32)
      (broadcastInDim S1600000x1 ![0] bcast_S1600000_S1600000x1_0 (V (Proc.devRef .tc main_v1) : IVec S1600000 32)) := by
  dsimp only [hostOps1]
  after_results
  rfl

theorem take64_keep (V : Valuation τ sig (Elt Ideal)) :
    StableHlo.after hostOps1 V (Proc.devRef .tc main_v3) = (V (Proc.devRef .tc main_v3)) := by
  dsimp only [hostOps1]
  after_results

theorem add64_step (V : Valuation τ sig (Elt Ideal)) :
    StableHlo.after hostOps1_1 V (Proc.devRef .tc main_v21) = Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (V (Proc.devRef .tc main_v3) : IVec S1600000 32)) (V (Proc.devRef .tc main_v18) : FVec Ideal S1600000x64 .f32) := by
  dsimp only [hostOps1_1]
  after_results

theorem take32_step (V : Valuation τ sig (Elt Ideal)) :
    StableHlo.after hostOps2 V (Proc.devRef .tc main_v24) = Host.gather gather_S100000x32_S1600000x1_S1600000x32_1_0_n_n_0_1_132 (V (Proc.devRef .tc main_v23) : FVec Ideal S100000x32 .f32)
      (broadcastInDim S1600000x1 ![0] bcast_S1600000_S1600000x1_0 (V (Proc.devRef .tc main_v1) : IVec S1600000 32)) := by
  dsimp only [hostOps2]
  after_results
  rfl

theorem take32_keep (V : Valuation τ sig (Elt Ideal)) :
    StableHlo.after hostOps2 V (Proc.devRef .tc main_v3) = (V (Proc.devRef .tc main_v3)) := by
  dsimp only [hostOps2]
  after_results

theorem add32_step (V : Valuation τ sig (Elt Ideal)) :
    StableHlo.after hostOps2_1 V (Proc.devRef .tc main_v27) = Host.scatterAdd scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 (V (Proc.devRef .tc main_v3) : IVec S1600000 32)) (V (Proc.devRef .tc main_v24) : FVec Ideal S1600000x32 .f32) := by
  dsimp only [hostOps2_1]
  after_results

end Steps

variable (m : (ℓ : Loc nD τ sig) → Buf (Elt Ideal) ℓ) (ρ : Dev nD → PrngReg)

/-! ## The contents the first stage is entered from

Five host stretches from the launch: the two id rows, the two counts, their clips, and the two factors. The id rows and
the arguments are written once and never again; the counts, clips and factors are followed stretch by stretch. -/

theorem at5_src (c : Dev nD) : W5 m ρ c (Proc.devRef .tc main_v1) = srcIds (m ((c : Thread nD τ).loc main_arg1)) := by
  dsimp only [W5, W4, W3, W2, W1, hostOps0, hostOps0_1, hostOps0_2, hostOps0_3, hostOps0_4]
  after_results
  rfl

theorem at5_dst (c : Dev nD) : W5 m ρ c (Proc.devRef .tc main_v3) = dstIds (m ((c : Thread nD τ).loc main_arg1)) := by
  dsimp only [W5, W4, W3, W2, W1, hostOps0, hostOps0_1, hostOps0_2, hostOps0_3, hostOps0_4]
  after_results
  rfl

theorem at5_x (c : Dev nD) : W5 m ρ c (Proc.devRef .tc main_arg0) = m ((c : Thread nD τ).loc main_arg0) := by
  dsimp only [W5, W4, W3, W2, W1, hostOps0, hostOps0_1, hostOps0_2, hostOps0_3, hostOps0_4]
  after_results

theorem at5_w1 (c : Dev nD) : W5 m ρ c (Proc.devRef .tc main_arg2) = m ((c : Thread nD τ).loc main_arg2) := by
  dsimp only [W5, W4, W3, W2, W1, hostOps0, hostOps0_1, hostOps0_2, hostOps0_3, hostOps0_4]
  after_results

theorem at5_b1 (c : Dev nD) : W5 m ρ c (Proc.devRef .tc main_arg3) = m ((c : Thread nD τ).loc main_arg3) := by
  dsimp only [W5, W4, W3, W2, W1, hostOps0, hostOps0_1, hostOps0_2, hostOps0_3, hostOps0_4]
  after_results

theorem at5_w2 (c : Dev nD) : W5 m ρ c (Proc.devRef .tc main_arg4) = m ((c : Thread nD τ).loc main_arg4) := by
  dsimp only [W5, W4, W3, W2, W1, hostOps0, hostOps0_1, hostOps0_2, hostOps0_3, hostOps0_4]
  after_results

theorem at5_b2 (c : Dev nD) : W5 m ρ c (Proc.devRef .tc main_arg5) = m ((c : Thread nD τ).loc main_arg5) := by
  dsimp only [W5, W4, W3, W2, W1, hostOps0, hostOps0_1, hostOps0_2, hostOps0_3, hostOps0_4]
  after_results

theorem s1_cnt (c : Dev nD) : W1 m ρ c (Proc.devRef .tc main_v7) = count (srcIds (m ((c : Thread nD τ).loc main_arg1))) := by
  dsimp only [W1, hostOps0]
  after_results
  rfl

theorem s1_one (c : Dev nD) : W1 m ρ c (Proc.devRef .tc main_cst_1) = constant (F := Ideal) S_ .f32 0x3F800000#32 := by
  dsimp only [W1, hostOps0]
  after_results

theorem s2_clip (c : Dev nD) : W2 m ρ c (Proc.devRef .tc main_v8) = degClip (srcIds (m ((c : Thread nD τ).loc main_arg1))) :=
  (clipSrc_step (W1 m ρ c)).trans (by rw [s1_one m ρ c, s1_cnt m ρ c]; rfl)
theorem s2_dst (c : Dev nD) : W2 m ρ c (Proc.devRef .tc main_v3) = dstIds (m ((c : Thread nD τ).loc main_arg1)) := by
  dsimp only [W2, W1, hostOps0, hostOps0_1]
  after_results
  rfl

theorem s2_ones (c : Dev nD) : W2 m ρ c (Proc.devRef .tc main_v4) = ones := by
  dsimp only [W2, W1, hostOps0, hostOps0_1]
  after_results
  rfl

theorem s3_cnt (c : Dev nD) : W3 m ρ c (Proc.devRef .tc main_v11) = count (dstIds (m ((c : Thread nD τ).loc main_arg1))) :=
  (countDst_step (W2 m ρ c)).trans (by rw [s2_dst m ρ c, s2_ones m ρ c]; rfl)
theorem s3_one (c : Dev nD) : W3 m ρ c (Proc.devRef .tc main_cst_3) = constant (F := Ideal) S_ .f32 0x3F800000#32 :=
  oneDst_step (W2 m ρ c)
theorem s3_clip (c : Dev nD) : W3 m ρ c (Proc.devRef .tc main_v8) = degClip (srcIds (m ((c : Thread nD τ).loc main_arg1))) :=
  (clipSrc_keep (W2 m ρ c)).trans (s2_clip m ρ c)
theorem s4_clipDst (c : Dev nD) : W4 m ρ c (Proc.devRef .tc main_v12) = degClip (dstIds (m ((c : Thread nD τ).loc main_arg1))) :=
  (clipDst_step (W3 m ρ c)).trans (by rw [s3_one m ρ c, s3_cnt m ρ c]; rfl)
theorem s4_clipSrc (c : Dev nD) : W4 m ρ c (Proc.devRef .tc main_v8) = degClip (srcIds (m ((c : Thread nD τ).loc main_arg1))) :=
  (clipSrc_keep' (W3 m ρ c)).trans (s3_clip m ρ c)
theorem at5_so (c : Dev nD) : W5 m ρ c (Proc.devRef .tc main_v14) = degFactor (srcIds (m ((c : Thread nD τ).loc main_arg1))) :=
  (factorSrc_step (W4 m ρ c)).trans (by rw [s4_clipSrc m ρ c]; rfl)
theorem at5_si (c : Dev nD) : W5 m ρ c (Proc.devRef .tc main_v16) = degFactor (dstIds (m ((c : Thread nD τ).loc main_arg1))) :=
  (factorDst_step (W4 m ρ c)).trans (by rw [s4_clipDst m ρ c]; rfl)

/-! ## After the first stage

Its output array holds `projScale` of what it read; a buffer that is none of its arrays is as it was, and an array it
only reads is as it was. -/

theorem at6_h (c : Dev nD) : W6 m ρ c (Proc.devRef .tc main_v17)
    = projScale (m ((c : Thread nD τ).loc main_arg0)) (m ((c : Thread nD τ).loc main_arg2)) (degFactor (srcIds (m ((c : Thread nD τ).loc main_arg1)))) := by
  refine (W6_arr m ρ c 3).trans ((Stage0.final (V5 m ρ) c).trans ?_)
  show projScale (W5 m ρ c (Proc.devRef .tc main_arg0)) (W5 m ρ c (Proc.devRef .tc main_arg2)) (W5 m ρ c (Proc.devRef .tc main_v14)) = _
  rw [at5_x m ρ c, at5_w1 m ρ c, at5_so m ρ c]

theorem at6_src (c : Dev nD) : W6 m ρ c (Proc.devRef .tc main_v1) = srcIds (m ((c : Thread nD τ).loc main_arg1)) :=
  (W6_of_ne m ρ c main_v1 (by decide)).trans (at5_src m ρ c)
theorem at6_dst (c : Dev nD) : W6 m ρ c (Proc.devRef .tc main_v3) = dstIds (m ((c : Thread nD τ).loc main_arg1)) :=
  (W6_of_ne m ρ c main_v3 (by decide)).trans (at5_dst m ρ c)
theorem at6_si (c : Dev nD) : W6 m ρ c (Proc.devRef .tc main_v16) = degFactor (dstIds (m ((c : Thread nD τ).loc main_arg1))) :=
  (W6_of_ne m ρ c main_v16 (by decide)).trans (at5_si m ρ c)
theorem at6_so (c : Dev nD) : W6 m ρ c (Proc.devRef .tc main_v14) = degFactor (srcIds (m ((c : Thread nD τ).loc main_arg1))) :=
  ((W6_arr m ρ c 2).trans (((dat0 (V5 m ρ) c).arrAt_in 2 rfl _).trans (A_eq0 (V5 m ρ) c 2))).trans (at5_so m ρ c)
theorem at6_b1 (c : Dev nD) : W6 m ρ c (Proc.devRef .tc main_arg3) = m ((c : Thread nD τ).loc main_arg3) :=
  (W6_of_ne m ρ c main_arg3 (by decide)).trans (at5_b1 m ρ c)
theorem at6_w2 (c : Dev nD) : W6 m ρ c (Proc.devRef .tc main_arg4) = m ((c : Thread nD τ).loc main_arg4) :=
  (W6_of_ne m ρ c main_arg4 (by decide)).trans (at5_w2 m ρ c)
theorem at6_b2 (c : Dev nD) : W6 m ρ c (Proc.devRef .tc main_arg5) = m ((c : Thread nD τ).loc main_arg5) :=
  (W6_of_ne m ρ c main_arg5 (by decide)).trans (at5_b2 m ρ c)

/-! ## The contents the middle stage is entered from

Two host stretches: the gather of the source rows and the scatter-add into the target rows, and the bias as a row. -/

/-- The gathered source rows (the first of the two stretches). -/
theorem at7_g (c : Dev nD) : W7 m ρ c (Proc.devRef .tc main_v18)
    = Host.gather gather_S100000x64_S1600000x1_S1600000x64_1_0_n_n_0_1_164
        (projScale (m ((c : Thread nD τ).loc main_arg0)) (m ((c : Thread nD τ).loc main_arg2)) (degFactor (srcIds (m ((c : Thread nD τ).loc main_arg1)))))
        (broadcastInDim S1600000x1 ![0] bcast_S1600000_S1600000x1_0 (srcIds (m ((c : Thread nD τ).loc main_arg1)))) :=
  (take64_step (W6 m ρ c)).trans (by rw [at6_h m ρ c, at6_src m ρ c])
theorem at7_dst (c : Dev nD) : W7 m ρ c (Proc.devRef .tc main_v3) = dstIds (m ((c : Thread nD τ).loc main_arg1)) :=
  (take64_keep (W6 m ρ c)).trans (at6_dst m ρ c)
theorem at8_a (c : Dev nD) : W8 m ρ c (Proc.devRef .tc main_v21)
    = agg64 (projScale (m ((c : Thread nD τ).loc main_arg0)) (m ((c : Thread nD τ).loc main_arg2)) (degFactor (srcIds (m ((c : Thread nD τ).loc main_arg1))))) (srcIds (m ((c : Thread nD τ).loc main_arg1))) (dstIds (m ((c : Thread nD τ).loc main_arg1))) :=
  (add64_step (W7 m ρ c)).trans (by rw [at7_g m ρ c, at7_dst m ρ c]; rfl)
theorem at8_b1 (c : Dev nD) : W8 m ρ c (Proc.devRef .tc main_v22) = shapeCast _ (m ((c : Thread nD τ).loc main_arg3)) shapeCasts_S64_S1x64 := by
  dsimp only [W8, W7, hostOps1, hostOps1_1]
  after_results
  rw [at6_b1 m ρ c]
  rfl
theorem at8_si (c : Dev nD) : W8 m ρ c (Proc.devRef .tc main_v16) = degFactor (dstIds (m ((c : Thread nD τ).loc main_arg1))) := by
  dsimp only [W8, W7, hostOps1, hostOps1_1]
  after_results
  exact at6_si m ρ c
theorem at8_so (c : Dev nD) : W8 m ρ c (Proc.devRef .tc main_v14) = degFactor (srcIds (m ((c : Thread nD τ).loc main_arg1))) := by
  dsimp only [W8, W7, hostOps1, hostOps1_1]
  after_results
  exact at6_so m ρ c
theorem at8_w2 (c : Dev nD) : W8 m ρ c (Proc.devRef .tc main_arg4) = m ((c : Thread nD τ).loc main_arg4) := by
  dsimp only [W8, W7, hostOps1, hostOps1_1]
  after_results
  exact at6_w2 m ρ c
theorem at8_src (c : Dev nD) : W8 m ρ c (Proc.devRef .tc main_v1) = srcIds (m ((c : Thread nD τ).loc main_arg1)) := by
  dsimp only [W8, W7, hostOps1, hostOps1_1]
  after_results
  exact at6_src m ρ c
theorem at8_dst (c : Dev nD) : W8 m ρ c (Proc.devRef .tc main_v3) = dstIds (m ((c : Thread nD τ).loc main_arg1)) := by
  dsimp only [W8, W7, hostOps1, hostOps1_1]
  after_results
  exact at6_dst m ρ c
theorem at8_b2 (c : Dev nD) : W8 m ρ c (Proc.devRef .tc main_arg5) = m ((c : Thread nD τ).loc main_arg5) := by
  dsimp only [W8, W7, hostOps1, hostOps1_1]
  after_results
  exact at6_b2 m ρ c

/-- The hidden layer's scaled projection, as the middle stage leaves it. -/
abbrev mid (c : Dev nD) : FVec Ideal S100000x32 .f32 :=
  finishProject
    (agg64 (projScale (m ((c : Thread nD τ).loc main_arg0)) (m ((c : Thread nD τ).loc main_arg2)) (degFactor (srcIds (m ((c : Thread nD τ).loc main_arg1))))) (srcIds (m ((c : Thread nD τ).loc main_arg1))) (dstIds (m ((c : Thread nD τ).loc main_arg1))))
    (degFactor (dstIds (m ((c : Thread nD τ).loc main_arg1)))) (shapeCast _ (m ((c : Thread nD τ).loc main_arg3)) shapeCasts_S64_S1x64)
    (m ((c : Thread nD τ).loc main_arg4)) (degFactor (srcIds (m ((c : Thread nD τ).loc main_arg1))))

/-! ## After the middle stage -/

theorem at9_h (c : Dev nD) : W9 m ρ c (Proc.devRef .tc main_v23) = mid m c := by
  refine (W9_arr m ρ c 5).trans ((Stage1.final (V8 m ρ) c).trans ?_)
  show finishProject (W8 m ρ c (Proc.devRef .tc main_v21)) (W8 m ρ c (Proc.devRef .tc main_v16)) (W8 m ρ c (Proc.devRef .tc main_v22))
    (W8 m ρ c (Proc.devRef .tc main_arg4)) (W8 m ρ c (Proc.devRef .tc main_v14)) = _
  rw [at8_a m ρ c, at8_si m ρ c, at8_b1 m ρ c, at8_w2 m ρ c, at8_so m ρ c]

theorem at9_src (c : Dev nD) : W9 m ρ c (Proc.devRef .tc main_v1) = srcIds (m ((c : Thread nD τ).loc main_arg1)) :=
  (W9_of_ne m ρ c main_v1 (by decide)).trans (at8_src m ρ c)
theorem at9_dst (c : Dev nD) : W9 m ρ c (Proc.devRef .tc main_v3) = dstIds (m ((c : Thread nD τ).loc main_arg1)) :=
  (W9_of_ne m ρ c main_v3 (by decide)).trans (at8_dst m ρ c)
theorem at9_si (c : Dev nD) : W9 m ρ c (Proc.devRef .tc main_v16) = degFactor (dstIds (m ((c : Thread nD τ).loc main_arg1))) :=
  ((W9_arr m ρ c 1).trans (((dat1 (V8 m ρ) c).arrAt_in 1 rfl _).trans (A_eq1 (V8 m ρ) c 1))).trans (at8_si m ρ c)
theorem at9_b2 (c : Dev nD) : W9 m ρ c (Proc.devRef .tc main_arg5) = m ((c : Thread nD τ).loc main_arg5) :=
  (W9_of_ne m ρ c main_arg5 (by decide)).trans (at8_b2 m ρ c)

/-! ## The contents the last stage is entered from -/

/-- The gathered source rows of the hidden layer's projection. -/
theorem at10_g (c : Dev nD) : W10 m ρ c (Proc.devRef .tc main_v24)
    = Host.gather gather_S100000x32_S1600000x1_S1600000x32_1_0_n_n_0_1_132 (mid m c)
        (broadcastInDim S1600000x1 ![0] bcast_S1600000_S1600000x1_0 (srcIds (m ((c : Thread nD τ).loc main_arg1)))) :=
  (take32_step (W9 m ρ c)).trans (by rw [at9_h m ρ c, at9_src m ρ c])
theorem at10_dst (c : Dev nD) : W10 m ρ c (Proc.devRef .tc main_v3) = dstIds (m ((c : Thread nD τ).loc main_arg1)) :=
  (take32_keep (W9 m ρ c)).trans (at9_dst m ρ c)
theorem at11_a (c : Dev nD) : W11 m ρ c (Proc.devRef .tc main_v27) = agg32 (mid m c) (srcIds (m ((c : Thread nD τ).loc main_arg1))) (dstIds (m ((c : Thread nD τ).loc main_arg1))) :=
  (add32_step (W10 m ρ c)).trans (by rw [at10_g m ρ c, at10_dst m ρ c]; rfl)
theorem at11_b2 (c : Dev nD) : W11 m ρ c (Proc.devRef .tc main_v28) = shapeCast _ (m ((c : Thread nD τ).loc main_arg5)) shapeCasts_S32_S1x32 := by
  dsimp only [W11, W10, hostOps2, hostOps2_1]
  after_results
  rw [at9_b2 m ρ c]
  rfl
theorem at11_si (c : Dev nD) : W11 m ρ c (Proc.devRef .tc main_v16) = degFactor (dstIds (m ((c : Thread nD τ).loc main_arg1))) := by
  dsimp only [W11, W10, hostOps2, hostOps2_1]
  after_results
  exact at9_si m ρ c

/-! ## The result -/

/-- The result buffer, once the last stage has written it back, holds the program's function of the arguments. -/
theorem value (c : Dev nD) : W12 m ρ c (Proc.devRef .tc main_v29)
    = through (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W12_arr m ρ c 3).trans ((Stage2.final (V11 m ρ) c).trans ?_)
  show finish (W11 m ρ c (Proc.devRef .tc main_v27)) (W11 m ρ c (Proc.devRef .tc main_v16)) (W11 m ρ c (Proc.devRef .tc main_v28)) = _
  rw [at11_a m ρ c, at11_si m ρ c, at11_b2 m ρ c]
  rfl

end Cert.KernelIdeal.Through

end
-- ==== Proof.PreRead.lean ====
import proofs.«418363_j54090818126571_3_alg».proof.Pre_finite_inputs
import Idealize.ShloMosaic.Lib.ReduceAll
import Idealize.ShloMosaic.Lib.Pipeline.Value
import Idealize.ShloMosaic.Lib.ValueIdx

/-!
What the precondition says of the edge list: its last conjunct is `all (edge_index[0:1] ≥ 0)`, so every source id —
row 0 of the `2 × 1600000` edge list — is non-negative as a signed 32-bit word.
-/

noncomputable section

namespace Cert.PreRead

open Cert.Pre_finite_inputs Idealize.ShloMosaic Idealize.ShloMosaic.ValueIdx

variable [hF : Cert.Pre_finite_inputs.Facts]
open Cert.Pre_finite_inputs.Facts

instance : Subsingleton S_.Idx := ⟨fun a b => funext fun d => d.elim0⟩

/-- Where the precondition holds, source id `j` is non-negative. -/
theorem src_nonneg {F : FTy → Type} [FloatOps F] (x0 : FVec F S100000x64 .f32) (e : IVec S2x1600000 32) (x2 : FVec F S64x64 .f32)
    (x3 : FVec F S64 .f32) (x4 : FVec F S64x32 .f32) (x5 : FVec F S32 .f32)
    (h : fn (F := F) x0 e x2 x3 x4 x5 = fun _ => 1#1) (j : Fin 1600000) :
    0 ≤ (e (ix2 (0 : Fin 2) j)).toInt := by
  have h0 := congrFun h ix0
  dsimp only [fn, fn_part1] at h0
  obtain ⟨-, hall⟩ := IntOp.andi_eq_one.1 h0
  have hj := Host.reduce_andi_all _ _ _ _ _ hall (ix2 (0 : Fin 1) j)
  have hge := IntOp.cmpi_sge.1 hj
  rw [extractStridedSlice_apply ![0, 0] e slices_S2x1600000_S1x1600000_0_0 (ix2 (0 : Fin 1) j) (ix2 (0 : Fin 2) j) (fun a => match a with
    | ⟨0, _⟩ => by show 0 = 0 + 0; rfl
    | ⟨1, _⟩ => by show j.val = 0 + j.val; omega)] at hge
  exact hge

end Cert.PreRead

end
-- ==== Proof.RefStages.lean ====
import proofs.«418363_j54090818126571_3_alg».proof.Proof.Gen.ReferenceIdeal.Read
import proofs.«418363_j54090818126571_3_alg».proof.Proof.Spec
import Idealize.ShloMosaic.Lib.ValueLayout

/-!
The reference's dense stages are the same three functions. It keeps a per-node factor as a vector and broadcasts it
along the feature axis, and broadcasts the bias along the node axis, where the tiled program reads a column and a row;
at an entry both read the node's factor and the column's bias. Its matrix products are the same sums over the 64
contracted columns.
-/

noncomputable section

namespace Cert.ReferenceIdeal.Stages

open Cert.ReferenceIdeal Cert.ReferenceIdeal.Gen Cert.ReferenceIdeal.Read Cert.Gcn
open Idealize.ShloMosaic Idealize.ShloMosaic.TcCoe Idealize.ShloMosaic.ValueIdx

/-! ## The layouts at an entry -/

/-- A vector laid out as a column reads, at row `r`, the vector's entry `r`. -/
theorem column_apply {n : ℕ} (d : FVec Ideal ⟨1, ![n]⟩ .f32) (h : (⟨1, ![n]⟩ : Shape).ShapeCasts ⟨2, ![n, 1]⟩) (r : Fin n) :
    shapeCast ⟨2, ![n, 1]⟩ d h (ix2 r (0 : Fin 1)) = d (ix1 r) :=
  shapeCast_apply d h _ _ (by
    rw [Shape.rowMajor_val_one, Shape.rowMajor_val_two]
    show r.val = r.val * 1 + 0
    omega)

theorem factor64_apply (d : FVec Ideal S100000 .f32) (r : Fin 100000) (q : Fin 64) :
    broadcastInDim S100000x64 ![0, 1] bcast_S100000x1_S100000x64_0_1 (broadcastInDim S100000x1 ![0] bcast_S100000_S100000x1_0 d) (ix2 r q) = d (ix1 r) :=
  (broadcastInDim_apply _ bcast_S100000x1_S100000x64_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans
  (broadcastInDim_apply _ bcast_S100000_S100000x1_0 d (ix2 r (0 : Fin 1)) (ix1 r) (fun a => match a with
    | ⟨0, _⟩ => by show r.val = if (100000 : Nat) = 1 then 0 else r.val; rw [if_neg (by decide)]))

theorem factor32_apply (d : FVec Ideal S100000 .f32) (r : Fin 100000) (q : Fin 32) :
    broadcastInDim S100000x32 ![0, 1] bcast_S100000x1_S100000x32_0_1 (broadcastInDim S100000x1 ![0] bcast_S100000_S100000x1_0 d) (ix2 r q) = d (ix1 r) :=
  (broadcastInDim_apply _ bcast_S100000x1_S100000x32_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])).trans
  (broadcastInDim_apply _ bcast_S100000_S100000x1_0 d (ix2 r (0 : Fin 1)) (ix1 r) (fun a => match a with
    | ⟨0, _⟩ => by show r.val = if (100000 : Nat) = 1 then 0 else r.val; rw [if_neg (by decide)]))

theorem bias64_apply (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) :=
  (broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

theorem bias32_apply (b : FVec Ideal S32 .f32) (r : Fin 100000) (q : Fin 32) :
    broadcastInDim S100000x32 ![0, 1] bcast_S1x32_S100000x32_0_1 (broadcastInDim S1x32 ![1] bcast_S32_S1x32_1 b) (ix2 r q) = b (ix1 q) :=
  (broadcastInDim_apply _ bcast_S1x32_S100000x32_0_1 _ (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])).trans
  (broadcastInDim_apply _ bcast_S32_S1x32_1 b (ix2 (0 : Fin 1) q) (ix1 q) (fun a => match a with
    | ⟨0, _⟩ => by show q.val = if (32 : Nat) = 1 then 0 else q.val; rw [if_neg (by decide)]))

/-! ## The matrix products at an entry -/

theorem dot64_apply (x : FVec Ideal S100000x64 .f32) (w : FVec Ideal S64x64 .f32) (r : Fin 100000) (q : Fin 64) :
    Host.dotGeneral dot_S100000x64_S64x64_S100000x64_1_0_0_1_n_n none x w (ix2 r q) = ∑ k : Fin 64, x (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs_main_v4_0 _ _
    | ⟨1, _⟩ => exact (lhs_main_v4_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs_main_v4_0 _ _).trans hk
    | ⟨1, _⟩ => exact rhs_main_v4_1 _ _)
  rw [el, er]

theorem dot32_apply (x : FVec Ideal S100000x64 .f32) (w : FVec Ideal S64x32 .f32) (r : Fin 100000) (q : Fin 32) :
    Host.dotGeneral dot_S100000x64_S64x32_S100000x32_1_0_0_1_n_n none x w (ix2 r q) = ∑ k : Fin 64, x (ix2 r k) * w (ix2 k q) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx (ix2 r q) ((ValueIdx.contrEquiv1 dot_S100000x64_S64x32_S100000x32_1_0_0_1_n_n 64 rfl rfl).symm k) = ix2 r k := funext fun a => Fin.ext (by
    match a with
    | ⟨0, _⟩ => exact lhs_main_v36_0 _ _
    | ⟨1, _⟩ => exact (lhs_main_v36_1 _ _).trans hk)
  have er : dot_S100000x64_S64x32_S100000x32_1_0_0_1_n_n.rhsIdx (ix2 r q) ((ValueIdx.contrEquiv1 dot_S100000x64_S64x32_S100000x32_1_0_0_1_n_n 64 rfl rfl).symm k) = ix2 k q := funext fun a => Fin.ext (by
    match a with
    | ⟨0, _⟩ => exact (rhs_main_v36_0 _ _).trans hk
    | ⟨1, _⟩ => exact rhs_main_v36_1 _ _)
  rw [el, er]

/-! ## The three stages -/

/-- The first layer's scaled projection. -/
theorem stage0_eq (x : FVec Ideal S100000x64 .f32) (w : FVec Ideal S64x64 .f32) (d : FVec Ideal S100000 .f32)
    (h : S100000.ShapeCasts S100000x1) :
    projScale x w (shapeCast S100000x1 d h)
      = mulf (Host.dotGeneral dot_S100000x64_S64x64_S100000x64_1_0_0_1_n_n none x w)
          (broadcastInDim S100000x64 ![0, 1] bcast_S100000x1_S100000x64_0_1 (broadcastInDim S100000x1 ![0] bcast_S100000_S100000x1_0 d)) := by
  funext i
  obtain ⟨r, q, rfl⟩ : ∃ (r : Fin 100000) (q : Fin 64), i = ix2 r q := ⟨i 0, i 1, eq_ix2 i⟩
  rw [projScale_ix2]
  unfold projScaleAt
  refine congrArg₂ (· * ·) (dot64_apply x w r q).symm ?_
  rw [column_apply d h r]
  exact (factor64_apply d r q).symm

/-- The first layer's finish and the second layer's scaled projection. -/
theorem stage1_eq (a : FVec Ideal S100000x64 .f32) (di : FVec Ideal S100000 .f32) (b : FVec Ideal S64 .f32)
    (w : FVec Ideal S64x32 .f32) (dOut : FVec Ideal S100000 .f32)
    (h h' : S100000.ShapeCasts S100000x1) (hb : S64.ShapeCasts S1x64) :
    finishProject a (shapeCast S100000x1 di h) (shapeCast S1x64 b hb) w (shapeCast S100000x1 dOut h')
      = mulf (Host.dotGeneral dot_S100000x64_S64x32_S100000x32_1_0_0_1_n_n none
            (maximumf
              (addf (mulf a (broadcastInDim S100000x64 ![0, 1] bcast_S100000x1_S100000x64_0_1 (broadcastInDim S100000x1 ![0] bcast_S100000_S100000x1_0 di)))
                (broadcastInDim S100000x64 ![0, 1] bcast_S1x64_S100000x64_0_1 (broadcastInDim S1x64 ![1] bcast_S64_S1x64_1 b)))
              (broadcastInDim S100000x64 ![] bcast_S_S100000x64 (constant (F := Ideal) S_ .f32 0x00000000#32))) w)
          (broadcastInDim S100000x32 ![0, 1] bcast_S100000x1_S100000x32_0_1 (broadcastInDim S100000x1 ![0] bcast_S100000_S100000x1_0 dOut)) := by
  funext i
  obtain ⟨r, q, rfl⟩ : ∃ (r : Fin 100000) (q : Fin 32), i = ix2 r q := ⟨i 0, i 1, eq_ix2 i⟩
  rw [finishProject_ix2]
  unfold projScaleAt
  refine congrArg₂ (· * ·) ?_ ?_
  · refine ((dot32_apply _ w r q).trans (Finset.sum_congr rfl fun k _ => congrArg (· * w (ix2 k q)) ?_)).symm
    rw [hidden_ix2]
    unfold hiddenAt
    rw [column_apply di h r, shapeCast_a_1a_apply b hb (0 : Fin 1) k]
    exact congrArg₂ max (congrArg₂ (· + ·) (congrArg (a (ix2 r k) * ·) (factor64_apply di r k)) (bias64_apply b r k)) rfl
  · rw [column_apply dOut h' r]
    exact (factor32_apply dOut r q).symm

/-- The second layer's finish. -/
theorem stage2_eq (a : FVec Ideal S100000x32 .f32) (di : FVec Ideal S100000 .f32) (b : FVec Ideal S32 .f32)
    (h : S100000.ShapeCasts S100000x1) (hb : S32.ShapeCasts S1x32) :
    finish a (shapeCast S100000x1 di h) (shapeCast S1x32 b hb)
      = addf (mulf a (broadcastInDim S100000x32 ![0, 1] bcast_S100000x1_S100000x32_0_1 (broadcastInDim S100000x1 ![0] bcast_S100000_S100000x1_0 di)))
          (broadcastInDim S100000x32 ![0, 1] bcast_S1x32_S100000x32_0_1 (broadcastInDim S1x32 ![1] bcast_S32_S1x32_1 b)) := by
  funext i
  obtain ⟨r, q, rfl⟩ : ∃ (r : Fin 100000) (q : Fin 32), i = ix2 r q := ⟨i 0, i 1, eq_ix2 i⟩
  rw [finish_ix2]
  unfold finishAt
  rw [column_apply di h r, shapeCast_a_1a_apply b hb (0 : Fin 1) q]
  exact (congrArg₂ (· + ·) (congrArg (a (ix2 r q) * ·) (factor32_apply di r q)) (bias32_apply b r q)).symm

end Cert.ReferenceIdeal.Stages

end
-- ==== Proof.Bridge.lean ====
import proofs.«418363_j54090818126571_3_alg».proof.Proof.KernelValue
import proofs.«418363_j54090818126571_3_alg».proof.Proof.RefStages

/-!
The two programs compute one function where every source id is non-negative.

The reference indexes the projected features by `h[src]`: a negative id is first moved up by the number of nodes, then the
gather clamps the row into range. The tiled program gathers with the raw id, clamped into range. On a non-negative id the
move does nothing, so both gather the same rows; every other operation is the same on both sides — the same counts and
factors, the same scatter-adds, and the three dense stages, which are the reference's products, scalings and biases
entry by entry.
-/

set_option maxRecDepth 16384

noncomputable section

namespace Cert.Bridge

open Cert.KernelIdeal.Through Cert.ReferenceIdeal.Read Cert.ReferenceIdeal.Stages Cert.Gcn
open Idealize.ShloMosaic Idealize.ShloMosaic.TcCoe Idealize.ShloMosaic.ValueIdx

/-! ## Moving a non-negative id up does nothing -/

/-- Source id `j` is entry `(0, j)` of the edge list. -/
theorem src_at (e : IVec Cert.ReferenceIdeal.S2x1600000 32) (j : Fin 1600000) :
    val_main_v1 (F := Ideal) e (ix1 j) = e (ix2 (0 : Fin 2) j) := by
  rw [val_main_v1_apply, val_main_v0_apply]
  refine congrArg e (funext fun a => Fin.ext ?_)
  match a with
  | ⟨0, _⟩ => rfl
  | ⟨1, _⟩ => exact Nat.mod_eq_of_lt j.isLt

section
open Cert.ReferenceIdeal

/-- The first layer's index list: "add the node count where the id is negative" changes nothing. -/
theorem wrap_first (e : IVec S2x1600000 32) (hnn : ∀ j : Fin 1600000, 0 ≤ (e (ix2 (0 : Fin 2) j)).toInt) :
    val_main_v22 (F := Ideal) e = val_main_v1 (F := Ideal) e := by
  funext i
  obtain ⟨j, rfl⟩ : ∃ j : Fin 1600000, i = ix1 j := ⟨i 0, eq_ix1 i⟩
  rw [val_main_v22_apply, val_main_v19_apply]
  have hlt : IntOp.cmpi .slt (val_main_v1 (F := Ideal) e (ix1 j)) (val_main_v18 (F := Ideal) (ix1 j)) = 0#1 := by
    refine ValueIdx.eq_zero_of_ne_one fun h1 => ?_
    have hs := IntOp.cmpi_slt.1 h1
    rw [src_at, val_main_v18_apply, val_main_c_apply] at hs
    have h0 := hnn j
    have hz : (0#32 : BitVec 32).toInt = 0 := by decide
    omega
  rw [hlt, ValueIdx.select_zero]

/-- The second layer's index list, likewise. -/
theorem wrap_second (e : IVec S2x1600000 32) (hnn : ∀ j : Fin 1600000, 0 ≤ (e (ix2 (0 : Fin 2) j)).toInt) :
    val_main_v54 (F := Ideal) e = val_main_v1 (F := Ideal) e := by
  funext i
  obtain ⟨j, rfl⟩ : ∃ j : Fin 1600000, i = ix1 j := ⟨i 0, eq_ix1 i⟩
  rw [val_main_v54_apply, val_main_v51_apply]
  have hlt : IntOp.cmpi .slt (val_main_v1 (F := Ideal) e (ix1 j)) (val_main_v50 (F := Ideal) (ix1 j)) = 0#1 := by
    refine ValueIdx.eq_zero_of_ne_one fun h1 => ?_
    have hs := IntOp.cmpi_slt.1 h1
    rw [src_at, val_main_v50_apply, val_main_c_11_apply] at hs
    have h0 := hnn j
    have hz : (0#32 : BitVec 32).toInt = 0 := by decide
    omega
  rw [hlt, ValueIdx.select_zero]

end

/-! ## The stages, one after the other -/

section
variable (x : FVec Ideal Cert.ReferenceIdeal.S100000x64 .f32) (e : IVec Cert.ReferenceIdeal.S2x1600000 32)
  (w1 : FVec Ideal Cert.ReferenceIdeal.S64x64 .f32) (b1 : FVec Ideal Cert.ReferenceIdeal.S64 .f32)
  (w2 : FVec Ideal Cert.ReferenceIdeal.S64x32 .f32) (b2 : FVec Ideal Cert.ReferenceIdeal.S32 .f32)

/-- The first layer's scaled projection. -/
theorem first_proj : projScale x w1 (degFactor (srcIds e)) = val_main_v17 (F := Ideal) x e w1 := by
  unfold degFactor
  rw [stage0_eq]
  rfl

/-- The first layer's aggregate. -/
theorem first_agg (hnn : ∀ j : Fin 1600000, 0 ≤ (e (ix2 (0 : Fin 2) j)).toInt) :
    agg64 (projScale x w1 (degFactor (srcIds e))) (srcIds e) (dstIds e) = val_main_v27 (F := Ideal) x e w1 := by
  rw [first_proj]
  unfold agg64 val_main_v27 val_main_v24 val_main_v23
  rw [wrap_first e hnn]
  rfl

/-- The hidden layer and the second layer's scaled projection. -/
theorem second_proj (hnn : ∀ j : Fin 1600000, 0 ≤ (e (ix2 (0 : Fin 2) j)).toInt) :
    finishProject (agg64 (projScale x w1 (degFactor (srcIds e))) (srcIds e) (dstIds e)) (degFactor (dstIds e))
        (shapeCast _ b1 Cert.KernelIdeal.Facts₀.shapeCasts_S64_S1x64) w2 (degFactor (srcIds e))
      = val_main_v49 (F := Ideal) x e w1 b1 w2 := by
  rw [first_agg x e w1 hnn]
  unfold degFactor
  rw [stage1_eq]
  rfl

/-- The second layer's aggregate. -/
theorem second_agg (hnn : ∀ j : Fin 1600000, 0 ≤ (e (ix2 (0 : Fin 2) j)).toInt) :
    agg32 (finishProject (agg64 (projScale x w1 (degFactor (srcIds e))) (srcIds e) (dstIds e)) (degFactor (dstIds e))
        (shapeCast _ b1 Cert.KernelIdeal.Facts₀.shapeCasts_S64_S1x64) w2 (degFactor (srcIds e))) (srcIds e) (dstIds e)
      = val_main_v59 (F := Ideal) x e w1 b1 w2 := by
  rw [second_proj x e w1 b1 w2 hnn]
  unfold agg32 val_main_v59 val_main_v56 val_main_v55
  rw [wrap_second e hnn]
  rfl

/-- The whole: the tiled program's function of the arguments is the reference's. -/
theorem through_eq (hnn : ∀ j : Fin 1600000, 0 ≤ (e (ix2 (0 : Fin 2) j)).toInt) :
    through x e w1 b1 w2 b2 = val_main_v66 (F := Ideal) x e w1 b1 w2 b2 := by
  unfold through
  rw [second_agg x e w1 b1 w2 hnn]
  unfold degFactor
  rw [stage2_eq]
  rfl

end

end Cert.Bridge

end
-- ==== Proof.lean ====
/-
  Two-layer graph convolution with symmetric degree normalisation, tiled over the node axis, against its plain reference,
  over the extended reals.

  Both programs compute, per layer, `D_in^(-1/2) · A · D_out^(-1/2) · (h W) + b` for the edge list's adjacency `A`: the
  per-node factors are the inverse square roots of the clipped out- and in-degrees, the aggregation gathers every edge's
  source row and adds it into the edge's target row, and the first layer ends in `max (·) 0`. The tiled program does the
  products, scalings and biases in three row-tiled stages (Stage0 / Stage1 / Stage2 prove each stage's output array is the
  whole-array function of Spec.lean), and leaves the degree counts, gathers and scatter-adds to the host, exactly as the
  reference has them (KernelValue follows the buffers from the launch to the result; RefStages reads the reference's
  products and broadcasts entry by entry; Bridge joins the two).

  The one place the programs differ is the gather's row for a NEGATIVE source id: the reference's `h[src]` moves it up by
  the node count, the tiled program's clamped take sends it to row 0. The precondition's last conjunct says every source id
  is non-negative (PreRead), and there the two index lists are the same (Bridge, `wrap_first` / `wrap_second`). No
  algebraic law is needed beyond that: sums, products and maxima appear in the same order on both sides, so the float
  inputs' finiteness is never used.

  The idealization rewrote nothing (`preserves` is `True`). The three frames: the tiled program's at both instances are
  the generated launch over its segments; the reference's is its generated run with the result dropped.
-/
import proofs.«418363_j54090818126571_3_alg».proof.Defs
import proofs.«418363_j54090818126571_3_alg».proof.Proof.Gen.Kernel
import proofs.«418363_j54090818126571_3_alg».proof.Proof.Gen.Kernel.Skeleton
import proofs.«418363_j54090818126571_3_alg».proof.Proof.Gen.Kernel.Launch
import proofs.«418363_j54090818126571_3_alg».proof.Proof.Gen.Kernel.Points
import proofs.«418363_j54090818126571_3_alg».proof.Proof.Gen.Kernel.Frame
import proofs.«418363_j54090818126571_3_alg».proof.Proof.Gen.KernelIdeal
import proofs.«418363_j54090818126571_3_alg».proof.Proof.Gen.KernelIdeal.Skeleton
import proofs.«418363_j54090818126571_3_alg».proof.Proof.Gen.KernelIdeal.Launch
import proofs.«418363_j54090818126571_3_alg».proof.Proof.Gen.KernelIdeal.Points
import proofs.«418363_j54090818126571_3_alg».proof.Proof.Gen.KernelIdeal.Frame
import proofs.«418363_j54090818126571_3_alg».proof.Proof.Gen.ReferenceIdeal
import proofs.«418363_j54090818126571_3_alg».proof.Proof.Gen.ReferenceIdeal.Run
import proofs.«418363_j54090818126571_3_alg».proof.Proof.Gen.ReferenceIdeal.Read
import proofs.«418363_j54090818126571_3_alg».proof.Proof.Gen.Pre_finite_inputs
import proofs.«418363_j54090818126571_3_alg».proof.Proof.KernelRun
import proofs.«418363_j54090818126571_3_alg».proof.Proof.KernelValue
import proofs.«418363_j54090818126571_3_alg».proof.Proof.PreRead
import proofs.«418363_j54090818126571_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments, where every source id is non-negative, both programs end with the
    result `through` of the arguments: the tiled program by following its buffers, the reference because its composed term
    is that function. -/
theorem algebraic : Cert.algebraic_KernelIdeal_ReferenceIdeal := by
  intro m ρ m' ρ' hpre hagree
  refine ⟨fun c => Cert.KernelIdeal.Through.through
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Through.value m ρ c), (h c).2⟩)
      (Cert.KernelIdeal.Whole.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v66_eq, (hagree c).1, (hagree c).2.1, (hagree c).2.2.1, (hagree c).2.2.2.1,
      (hagree c).2.2.2.2.1, (hagree c).2.2.2.2.2]
    exact (Cert.Bridge.through_eq _ _ _ _ _ _ (fun j => Cert.PreRead.src_nonneg _ _ _ _ _ _ (hpre c) j)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
